-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S8x8192 : Shape := ⟨2, ![8, 8192]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S8x8192 : S_.BroadcastsInDim S8x8192 (![] : Fin 0 → Fin S8x8192.rank)
  reducesTo_S8x8192_S_d0_1 : S8x8192.ReducesTo [0, 1] S_

variable [Facts]

def fn {F : FTy → Type} [FloatOps F] (main_arg0 : FVec F S8192x4096 .f32) (main_arg1 : FVec F S8x8192 .f32) (main_arg2 : FVec F S8x8192 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8x8192 .f32 := Host.absf main_arg1
  let main_cst_0 : FVec F S_ .f32 := constant S_ .f32 0x7F800000#32
  let main_v5 : FVec F S8x8192 .f32 := broadcastInDim S8x8192 ![] bcast_S_S8x8192 main_cst_0
  let main_v6 : IVec S8x8192 1 := cmpf .olt main_v4 main_v5
  let main_c_1 : IVec S_ 1 := constantI S_ 1 1#1
  let main_v7 : IVec S_ 1 := (fun x v => Host.reduce IntOp.andi x v reducesTo_S8x8192_S_d0_1 h_S_) main_v6 main_c_1
  let main_v8 : IVec S_ 1 := andi main_v3 main_v7
  let main_v9 : FVec F S8x8192 .f32 := Host.absf main_arg2
  let main_cst_2 : FVec F S_ .f32 := constant S_ .f32 0x7F800000#32
  let main_v10 : FVec F S8x8192 .f32 := broadcastInDim S8x8192 ![] bcast_S_S8x8192 main_cst_2
  let main_v11 : IVec S8x8192 1 := cmpf .olt main_v9 main_v10
  let main_c_3 : IVec S_ 1 := constantI S_ 1 1#1
  let main_v12 : IVec S_ 1 := (fun x v => Host.reduce IntOp.andi x v reducesTo_S8x8192_S_d0_1 h_S_) main_v11 main_c_3
  let main_v13 : IVec S_ 1 := andi main_v8 main_v12
  main_v13
-- ==== Kernel.lean ====
abbrev S8192x4096 : Shape := ⟨2, ![8192, 4096]⟩
abbrev S8x8192 : Shape := ⟨2, ![8, 8192]⟩
abbrev S8x4096 : Shape := ⟨2, ![8, 4096]⟩
abbrev S8x512 : Shape := ⟨2, ![8, 512]⟩
abbrev S512x4096 : Shape := ⟨2, ![512, 4096]⟩
abbrev S8x1024 : Shape := ⟨2, ![8, 1024]⟩
abbrev S1024x4096 : Shape := ⟨2, ![1024, 4096]⟩

abbrev nBuf : Space → Nat
  | .hbm => 5
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S8x8192, .f32⟩
  | .hbm, ⟨2, _⟩ => ⟨S8x8192, .f32⟩
  | .hbm, ⟨3, _⟩ => ⟨S8x4096, .f32⟩
  | .hbm, ⟨4, _⟩ => ⟨S8192x4096, .f32⟩
  | .local _ .vmem, ⟨0, _⟩ => ⟨S8x512, .f32⟩
  | .local _ .vmem, ⟨1, _⟩ => ⟨S8x512, .f32⟩
  | .local _ .vmem, ⟨2, _⟩ => ⟨S512x4096, .f32⟩
  | .local _ .vmem, ⟨3, _⟩ => ⟨S512x4096, .f32⟩
  | .local _ .vmem, ⟨4, _⟩ => ⟨S8x4096, .f32⟩
  | .local _ .vmem, ⟨5, _⟩ => ⟨S8x1024, .f32⟩
  | .local _ .vmem, ⟨6, _⟩ => ⟨S8x1024, .f32⟩
  | .local _ .vmem, ⟨7, _⟩ => ⟨S8x4096, .f32⟩
  | .local _ .vmem, ⟨8, _⟩ => ⟨S1024x4096, .f32⟩
  | .local _ .vmem, ⟨9, _⟩ => ⟨S1024x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S8x4096_S8x4096_0_0 : ∀ a, (![0, 0] : Fin 2 → Nat) a + S8x4096.size a ≤ S8x4096.size a
  h_S8x4096 : 0 < S8x4096.numel
  inb_S8x512_S8x512_0_0 : ∀ a, (![0, 0] : Fin 2 → Nat) a + S8x512.size a ≤ S8x512.size a
  h_S8x512 : 0 < S8x512.numel
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  shapeCasts_S8x4096_S8x4096 : S8x4096.ShapeCasts S8x4096
  inb_S8x1024_S8x1024_0_0 : ∀ a, (![0, 0] : Fin 2 → Nat) a + S8x1024.size a ≤ S8x1024.size a
  h_S8x1024 : 0 < S8x1024.numel
  inb_S1024x4096_S1024x4096_0_0 : ∀ a, (![0, 0] : Fin 2 → Nat) a + S1024x4096.size a ≤ S1024x4096.size a
  h_S1024x4096 : 0 < S1024x4096.numel
  dot_S8x512_S512x4096_S8x4096_1_0_0_1_n_n_wf : DotDims.WF S8x512 S512x4096 S8x4096 [1] [0] [0] [1] [] []
  dot_S8x1024_S8x4096_S1024x4096_0_0_1_1_n_n_wf : DotDims.WF S8x1024 S8x4096 S1024x4096 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512.size a ≤ S8x8192.size a
  hwx0_0 : ∀ i : grid0.Coords, EltTy.bits .f32 = 32 ∨ (Rect.block (s := S8x8192) S8x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S8192x4096.size a
  hwx0_1 : ∀ i : grid0.Coords, EltTy.bits .f32 = 32 ∨ (Rect.block (s := S8192x4096) S512x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x4096.size a ≤ S8x4096.size a
  hwx0_2 : ∀ i : grid0.Coords, EltTy.bits .f32 = 32 ∨ (Rect.block (s := S8x4096) S8x4096.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x1024.size a ≤ S8x8192.size a
  hwx1_0 : ∀ i : grid1.Coords, EltTy.bits .f32 = 32 ∨ (Rect.block (s := S8x8192) S8x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8x4096.size a ≤ S8x4096.size a
  hwx1_1 : ∀ i : grid1.Coords, EltTy.bits .f32 = 32 ∨ (Rect.block (s := S8x4096) S8x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x4096.size a ≤ S8192x4096.size a
  hwx1_2 : ∀ i : grid1.Coords, EltTy.bits .f32 = 32 ∨ (Rect.block (s := S8192x4096) S1024x4096.size (cc1_transform_2 i) (hinb1_2 i)).WholeWords (EltTy.packing .f32)

variable [Facts₀]

def dot_S8x512_S512x4096_S8x4096_1_0_0_1_n_n : DotDims S8x512 S512x4096 S8x4096 where
  lhsContracting := [1]
  rhsContracting := [0]
  lhsNonContracting := [0]
  rhsNonContracting := [1]
  lhsBatch := []
  rhsBatch := []
  wf := dot_S8x512_S512x4096_S8x4096_1_0_0_1_n_n_wf
def dot_S8x1024_S8x4096_S1024x4096_0_0_1_1_n_n : DotDims S8x1024 S8x4096 S1024x4096 where
  lhsContracting := [0]
  rhsContracting := [0]
  lhsNonContracting := [1]
  rhsNonContracting := [1]
  lhsBatch := []
  rhsBatch := []
  wf := dot_S8x1024_S8x4096_S1024x4096_0_0_1_1_n_n_wf

abbrev win0_0 : Pipeline.Window sig grid0 :=
  Pipeline.Window.ofSpec (Memref.whole main_arg2) S8x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x4096.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S8x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S8x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x4096.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x4096 : Shape := ⟨2, ![8192, 4096]⟩
abbrev S8x8192 : Shape := ⟨2, ![8, 8192]⟩
abbrev S8192x8192 : Shape := ⟨2, ![8192, 8192]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8x8192, .f32⟩
  | .hbm, ⟨2, _⟩ => ⟨S8x8192, .f32⟩
  | .hbm, ⟨3, _⟩ => ⟨S8192x8192, .f32⟩
  | .hbm, ⟨4, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S8x8192_S8x8192_S8192x8192_0_0_1_1_n_n_wf : DotDims.WF S8x8192 S8x8192 S8192x8192 [0] [0] [1] [1] [] []
  dot_S8192x8192_S8192x4096_S8192x4096_1_0_0_1_n_n_wf : DotDims.WF S8192x8192 S8192x4096 S8192x4096 [1] [0] [0] [1] [] []

variable [Facts₀]

def dot_S8x8192_S8x8192_S8192x8192_0_0_1_1_n_n : DotDims S8x8192 S8x8192 S8192x8192 where
  lhsContracting := [0]
  rhsContracting := [0]
  lhsNonContracting := [1]
  rhsNonContracting := [1]
  lhsBatch := []
  rhsBatch := []
  wf := dot_S8x8192_S8x8192_S8192x8192_0_0_1_1_n_n_wf
def dot_S8192x8192_S8192x4096_S8192x4096_1_0_0_1_n_n : DotDims S8192x8192 S8192x4096 S8192x4096 where
  lhsContracting := [1]
  rhsContracting := [0]
  lhsNonContracting := [0]
  rhsNonContracting := [1]
  lhsBatch := []
  rhsBatch := []
  wf := dot_S8192x8192_S8192x4096_S8192x4096_1_0_0_1_n_n_wf

class Facts : Prop extends Facts₀ where

variable [Facts]
-- ==== Proof.Region1.lean ====
import proofs.«124544_j44306882626256_1_alg».proof.Proof.Gen.KernelIdeal.Frame
import Idealize.ShloMosaic.Lib.Pipeline.Value
import Idealize.ShloMosaic.Lib.ValueIdx
import Idealize.ShloMosaic.PureOps.Ideal.Laws

/-!
# The second call: out = Uᵀ T, one block of 1024 rows per grid point

The body multiplies the point's 8 × 1024 block of U, transposed, with the whole 8 × 4096 matrix T into a zero
accumulator, so at row p and column q of the block it leaves the sum over the eight ranks r of U[r, 1024 t + p] · T[r, q].
The eight blocks tile the 8192 × 4096 result, which therefore ends, index by index, at ∑ r, U[r, l] · T[r, b].
-/

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.OutRegion

open Cert.KernelIdeal Cert.KernelIdeal.Gen

/-- The product Uᵀ T at an index of the result. -/
def outOf (ua : S8x8192.Idx → EReal) (ta : S8x4096.Idx → EReal) : S8192x4096.Idx → EReal :=
  fun i => ∑ r : Fin 8, ua (ix2 r ⟨(i 0).val, (i 0).isLt⟩) * ta (ix2 r ⟨(i 1).val, (i 1).isLt⟩)

theorem hz : (![0, 0] : Fin 2 → Nat) = fun _ => 0 := funext fun a => by fin_cases a <;> rfl

/-! ## The contraction's operand indices, axis by axis -/

theorem lhs_out_0 (i : S1024x4096.Idx) (q : dot_S8x1024_S8x4096_S1024x4096_0_0_1_1_n_n.contr.Idx) :
    (dot_S8x1024_S8x4096_S1024x4096_0_0_1_1_n_n.lhsIdx i q 0).val = (q ⟨0, by decide⟩).val :=
  dot_S8x1024_S8x4096_S1024x4096_0_0_1_1_n_n.lhsIdx_val_of_single rfl i q
theorem lhs_out_1 (i : S1024x4096.Idx) (q : dot_S8x1024_S8x4096_S1024x4096_0_0_1_1_n_n.contr.Idx) :
    (dot_S8x1024_S8x4096_S1024x4096_0_0_1_1_n_n.lhsIdx i q 1).val = (i 0).val := by
  unfold DotDims.lhsIdx
  rw [dif_neg (show ¬(1 : Fin S8x1024.rank) ∈ dot_S8x1024_S8x4096_S1024x4096_0_0_1_1_n_n.lhsBatch by decide), dif_pos (show (1 : Fin S8x1024.rank) ∈ dot_S8x1024_S8x4096_S1024x4096_0_0_1_1_n_n.lhsNonContracting by decide)]
  rfl
theorem rhs_out_0 (i : S1024x4096.Idx) (q : dot_S8x1024_S8x4096_S1024x4096_0_0_1_1_n_n.contr.Idx) :
    (dot_S8x1024_S8x4096_S1024x4096_0_0_1_1_n_n.rhsIdx i q 0).val = (q ⟨0, by decide⟩).val :=
  dot_S8x1024_S8x4096_S1024x4096_0_0_1_1_n_n.rhsIdx_val_of_single rfl i q
theorem rhs_out_1 (i : S1024x4096.Idx) (q : dot_S8x1024_S8x4096_S1024x4096_0_0_1_1_n_n.contr.Idx) :
    (dot_S8x1024_S8x4096_S1024x4096_0_0_1_1_n_n.rhsIdx i q 1).val = (i 1).val := by
  unfold DotDims.rhsIdx
  rw [dif_neg (show ¬(1 : Fin S8x4096.rank) ∈ dot_S8x1024_S8x4096_S1024x4096_0_0_1_1_n_n.rhsBatch by decide), dif_pos (show (1 : Fin S8x4096.rank) ∈ dot_S8x1024_S8x4096_S1024x4096_0_0_1_1_n_n.rhsNonContracting by decide)]
  rfl

/-- The body's product at row p and column q of its block: the sum over the ranks of the U block's column p times T's
    column q (the changes of float format are the identity on extended reals, the accumulator is zero). -/
theorem pay_apply (x0 : Vec Ideal S8x1024 .f32) (x1 : Vec Ideal S8x4096 .f32) (j : S1024x4096.Idx) :
    k1_pay1 (F := Ideal) x0 x1 j
      = ∑ r : Fin 8, x0 (ix2 r ⟨(j 0).val, (j 0).isLt⟩) * x1 (ix2 r ⟨(j 1).val, (j 1).isLt⟩) := by
  unfold k1_pay1
  simp only [matmul]
  rw [Ideal.matmul_constant_zero_apply, ← Equiv.sum_comp (contrEquiv1 dot_S8x1024_S8x4096_S1024x4096_0_0_1_1_n_n 8 rfl rfl).symm]
  refine Finset.sum_congr rfl fun k _ => ?_
  have hk := contrEquiv1_symm_val dot_S8x1024_S8x4096_S1024x4096_0_0_1_1_n_n 8 rfl rfl k
  have el : dot_S8x1024_S8x4096_S1024x4096_0_0_1_1_n_n.lhsIdx j ((contrEquiv1 dot_S8x1024_S8x4096_S1024x4096_0_0_1_1_n_n 8 rfl rfl).symm k) = ix2 k ⟨(j 0).val, (j 0).isLt⟩ := funext fun a => Fin.ext (by
    match a with
    | ⟨0, _⟩ => exact (lhs_out_0 _ _).trans hk
    | ⟨1, _⟩ => exact lhs_out_1 _ _)
  have er : dot_S8x1024_S8x4096_S1024x4096_0_0_1_1_n_n.rhsIdx j ((contrEquiv1 dot_S8x1024_S8x4096_S1024x4096_0_0_1_1_n_n 8 rfl rfl).symm k) = ix2 k ⟨(j 1).val, (j 1).isLt⟩ := funext fun a => Fin.ext (by
    match a with
    | ⟨0, _⟩ => exact (rhs_out_0 _ _).trans hk
    | ⟨1, _⟩ => exact rhs_out_1 _ _)
  rw [truncf_apply, truncf_apply, shapeCast_self, el, er]
  rfl

/-! ## The blocks, the write-backs and the cover -/

variable (V : (c : Dev nD) → (b : Ref sig .tc) → Buf (Elt Ideal) ((c : Thread nD τ).loc b))

/-- The printed index maps, decided over the grid: U's block moves along its columns with the point, T's block is the
    whole matrix, the result's block moves along its rows with the point. -/
theorem idx_facts : ∀ t : Fin cfg1.N, win1_0.index t (0 : Fin 2) = 0 ∧ win1_0.index t (1 : Fin 2) = t.val
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Entry (r, p) of U's block at point t is U[r, 1024 t + p]. -/
theorem ublk_apply (c : Dev nD) (t : Fin cfg1.N) (r : Fin 8) (p : Fin 1024) (hp : t.val * 1024 + p.val < 8192) :
    (iblk1 V c 0 t : Vec Ideal S8x1024 .f32) (ix2 r p) = V c main_arg1 (ix2 r ⟨t.val * 1024 + p.val, hp⟩) := by
  obtain ⟨e0, e1, -⟩ := idx_facts t
  unfold iblk1
  rw [View.read_apply]
  show V c main_arg1 (((cfg1.win 0).blk t).view.emb (ix2 r p)) = V c main_arg1 _
  refine congrArg _ (funext fun a => Fin.ext ?_)
  match a with
  | ⟨0, _⟩ => show win1_0.index t (0 : Fin 2) * 8 + 1 * r.val = r.val; omega
  | ⟨1, _⟩ => show win1_0.index t (1 : Fin 2) * 1024 + 1 * p.val = t.val * 1024 + p.val; omega

/-- T's block at any point is all of T. -/
theorem tblk_apply (c : Dev nD) (t : Fin cfg1.N) (r : Fin 8) (q : Fin 4096) :
    (iblk1 V c 1 t : Vec Ideal S8x4096 .f32) (ix2 r q) = V c main_v0 (ix2 r q) := by
  obtain ⟨-, -, e2, e3, -⟩ := idx_facts t
  unfold iblk1
  rw [View.read_apply]
  show V c main_v0 (((cfg1.win 1).blk t).view.emb (ix2 r q)) = V c main_v0 _
  refine congrArg _ (funext fun a => Fin.ext ?_)
  match a with
  | ⟨0, _⟩ => show win1_1.index t (0 : Fin 2) * 8 + 1 * r.val = r.val; omega
  | ⟨1, _⟩ => show win1_1.index t (1 : Fin 2) * 4096 + 1 * q.val = q.val; omega

/-- One block, over variables: if x0 is the block of U's columns 1024 n … 1024 n + 1023 and x1 is T, the body's product
    at (p, q) of the block is Uᵀ T at the index i = (1024 n + p, q) of the result. -/
theorem block_value (ua : S8x8192.Idx → EReal) (ta : S8x4096.Idx → EReal) (x0 : Vec Ideal S8x1024 .f32) (x1 : Vec Ideal S8x4096 .f32)
    (n : ℕ) (hn : n < 8)
    (h0 : ∀ (r : Fin 8) (p : Fin 1024) (hp : n * 1024 + p.val < 8192), x0 (ix2 r p) = ua (ix2 r ⟨n * 1024 + p.val, hp⟩))
    (h1 : ∀ (r : Fin 8) (q : Fin 4096), x1 (ix2 r q) = ta (ix2 r q))
    (j : S1024x4096.Idx) (i : S8192x4096.Idx) (hi0 : (i 0).val = n * 1024 + (j 0).val) (hi1 : (i 1).val = (j 1).val) :
    k1_pay1 (F := Ideal) x0 x1 j = outOf ua ta i := by
  have hj0 : (j 0).val < 1024 := (j 0).isLt
  rw [pay_apply]
  unfold outOf
  refine Finset.sum_congr rfl fun r _ => ?_
  rw [h0 r ⟨(j 0).val, (j 0).isLt⟩ (by show n * 1024 + (j 0).val < 8192; omega), h1]
  congr 1
  · exact congrArg _ (funext fun a => Fin.ext (by match a with | ⟨0, _⟩ => rfl | ⟨1, _⟩ => exact hi0.symm))
  · exact congrArg _ (funext fun a => Fin.ext (by match a with | ⟨0, _⟩ => rfl | ⟨1, _⟩ => exact hi1.symm))

/-- What point t writes back is block t of Uᵀ T, of the arrays as the call finds them. -/
theorem flushed_eq (c : Dev nD) (t : Fin cfg1.N) :
    (dat1 V c).flushed 2 t = ((cfg1.win 2).blk t).view.read (Elt Ideal) (outOf (V c main_arg1) (V c main_v0)) := by
  have hN : t.val < 8 := lt_of_lt_of_eq t.isLt (show cfg1.N = 8 from N_1)
  obtain ⟨-, -, -, -, e4, e5⟩ := idx_facts t
  show (cfg1.win 2).cut (grid1.coords t) ((dat1 V c).after 2 t) = _
  rw [after1_2]
  unfold out1_2
  rw [View.canon_unit_zero hz]
  simp only [View.ld_unit_zero (S := S8x1024) hz, View.ld_unit_zero (S := S8x4096) hz]
  funext j
  rw [View.read_apply]
  have i0 : ((((cfg1.win 2).blk t).view.emb j) 0).val = t.val * 1024 + (j 0).val := by
    show win1_2.index t (0 : Fin 2) * 1024 + 1 * (j 0).val = _; omega
  have i1 : ((((cfg1.win 2).blk t).view.emb j) 1).val = (j 1).val := by
    show win1_2.index t (1 : Fin 2) * 4096 + 1 * (j 1).val = _; omega
  exact block_value (V c main_arg1) (V c main_v0) (iblk1 V c 0 t) (iblk1 V c 1 t) t.val hN
    (fun r p hp => ublk_apply V c t r p hp) (fun r q => tblk_apply V c t r q) j (((cfg1.win 2).blk t).view.emb j) i0 i1

/-- An index of the result is in point t's block iff each coordinate is in the block's range on its axis. -/
theorem mem_blk (t : Fin cfg1.N) (i : S8192x4096.Idx) :
    i ∈ ((cfg1.win 2).blk t).view.set ↔ ∀ a : Fin 2, win1_2.index t a * S1024x4096.size a ≤ (i a).val ∧ (i a).val < win1_2.index t a * S1024x4096.size a + S1024x4096.size a := by
  show i ∈ ((View.whole main_v1).slice (win1_2.rect t)).set ↔ _
  rw [View.set_slice_whole, Rect.mem_set_unit]
  exact Iff.rfl

/-- Row l of the result lies in the block of point l / 1024, which is written back. -/
theorem covered (i : S8192x4096.Idx) : ∃ t : Fin cfg1.N, (cfg1.win 2).flush t = true ∧ i ∈ ((cfg1.win 2).blk t).view.set := by
  have hi0 : (i 0).val < 8192 := (i 0).isLt
  have hi1 : (i 1).val < 4096 := (i 1).isLt
  refine ⟨⟨(i 0).val / 1024, by rw [show cfg1.N = 8 from N_1]; omega⟩, flush1_2 _, ?_⟩
  rw [mem_blk]
  obtain ⟨-, -, -, -, e4, e5⟩ := idx_facts ⟨(i 0).val / 1024, by rw [show cfg1.N = 8 from N_1]; omega⟩
  intro a
  match a with
  | ⟨0, _⟩ => show win1_2.index _ (0 : Fin 2) * 1024 ≤ (i 0).val ∧ (i 0).val < win1_2.index _ (0 : Fin 2) * 1024 + 1024; rw [e4]; dsimp only; omega
  | ⟨1, _⟩ => show win1_2.index _ (1 : Fin 2) * 4096 ≤ (i 1).val ∧ (i 1).val < win1_2.index _ (1 : Fin 2) * 4096 + 4096; rw [e5]; omega

/-- The result array after the call: Uᵀ T of the arrays as the call finds them. -/
theorem final (c : Dev nD) : (dat1 V c).arrAt 2 cfg1.N = outOf (V c main_arg1) (V c main_v0) :=
  (dat1 V c).arrAt_eq_of_cover 2 (outOf (V c main_arg1) (V c main_v0)) (fun t _ => flushed_eq V c t) covered

end Cert.KernelIdeal.OutRegion

end
-- ==== Proof.Algebra.lean ====
import Idealize.ShloMosaic.Lib.ValueIdx
import Idealize.ShloMosaic.PureOps.Ideal.Laws
import Mathlib.Data.EReal.Basic
import Mathlib.Algebra.BigOperators.Fin
import Mathlib.Algebra.BigOperators.Ring.Finset
import Mathlib.Tactic.Ring

/-!
# A rank-8 product, factored

For u, v of shape 8 × 8192 and x of shape 8192 × 4096 the matrix W = uᵀ v (8192 × 8192, of rank at most 8) applied to x
is (W x)[l, b] = ∑ m, (∑ r, u[r, l] · v[r, m]) · x[m, b].  Factored, it is ∑ r, u[r, l] · T[r, b] with the small matrix
T = v x, and T[r, b] = ∑ m, v[r, m] · x[m, b] is accumulated over the sixteen blocks of 512 rows of x, first to last,
from zero.  Over the extended reals the two agree when every entry is a real number: moving u[r, l] across the sum over
m is distributivity, which fails at the infinities.
-/

noncomputable section

open scoped BigOperators

namespace LowRank

/-- Row block i's share of T[r, b]: the products over the rows 512 i ≤ m < 512 (i + 1). -/
def blockDot (v : Fin 8 → Fin 8192 → EReal) (x : Fin 8192 → Fin 4096 → EReal) (r : Fin 8) (b : Fin 4096)
    (i : ℕ) (hi : i < 16) : EReal :=
  ∑ k : Fin 512, v r ⟨i * 512 + k.val, by have := k.isLt; omega⟩ * x ⟨i * 512 + k.val, by have := k.isLt; omega⟩ b

/-- The running value of T[r, b] after row block n: zero plus block 0's share, then one share more per block. -/
def acc (v : Fin 8 → Fin 8192 → EReal) (x : Fin 8192 → Fin 4096 → EReal) (r : Fin 8) (b : Fin 4096) :
    (n : ℕ) → n < 16 → EReal
  | 0, h => 0 + blockDot v x r b 0 h
  | n + 1, h => acc v x r b n (Nat.lt_of_succ_lt h) + blockDot v x r b (n + 1) h

/-- The factored product ∑ r, u[r, l] · T[r, b], with T accumulated block by block. -/
def factored (u v : Fin 8 → Fin 8192 → EReal) (x : Fin 8192 → Fin 4096 → EReal) (l : Fin 8192) (b : Fin 4096) : EReal :=
  ∑ r : Fin 8, u r l * acc v x r b 15 (by norm_num)

/-- The product through the full 8192 × 8192 matrix uᵀ v. -/
def materialized (u v : Fin 8 → Fin 8192 → EReal) (x : Fin 8192 → Fin 4096 → EReal) (l : Fin 8192) (b : Fin 4096) : EReal :=
  ∑ m : Fin 8192, (∑ r : Fin 8, u r l * v r m) * x m b

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The product v[r, m] · x[m, b] of real entries as a function of a natural number m, zero from 8192 on. -/
def term (v : Fin 8 → Fin 8192 → ℝ) (x : Fin 8192 → Fin 4096 → ℝ) (r : Fin 8) (b : Fin 4096) (m : ℕ) : ℝ :=
  if h : m < 8192 then v r ⟨m, h⟩ * x ⟨m, h⟩ b else 0

/-- On real entries block i's share is the real sum of the 512 products of rows 512 i ≤ m < 512 (i + 1). -/
theorem blockDot_coe (v : Fin 8 → Fin 8192 → ℝ) (x : Fin 8192 → Fin 4096 → ℝ) (r : Fin 8) (b : Fin 4096)
    (i : ℕ) (hi : i < 16) :
    blockDot (fun r m => (v r m : EReal)) (fun m b => (x m b : EReal)) r b i hi
      = ((∑ k ∈ Finset.range 512, term v x r b (i * 512 + k) : ℝ) : EReal) := by
  rw [← Fin.sum_univ_eq_sum_range (fun k => term v x r b (i * 512 + k)) 512, coe_sum]
  unfold blockDot
  refine Finset.sum_congr rfl fun k _ => ?_
  have hk : i * 512 + k.val < 8192 := by have := k.isLt; omega
  rw [term, dif_pos hk, EReal.coe_mul]

/-- On real entries the running value after block n is the real sum of the first 512 (n + 1) products. -/
theorem acc_coe (v : Fin 8 → Fin 8192 → ℝ) (x : Fin 8192 → Fin 4096 → ℝ) (r : Fin 8) (b : Fin 4096)
    (n : ℕ) (h : n < 16) :
    acc (fun r m => (v r m : EReal)) (fun m b => (x m b : EReal)) r b n h
      = ((∑ m ∈ Finset.range ((n + 1) * 512), term v x r b m : ℝ) : EReal) := by
  induction n with
  | zero =>
    rw [acc, blockDot_coe, zero_add]
    simp only [Nat.zero_mul, Nat.zero_add, Nat.one_mul]
  | succ n ih =>
    have e : (n + 1 + 1) * 512 = (n + 1) * 512 + 512 := by omega
    rw [acc, ih (Nat.lt_of_succ_lt h), blockDot_coe, ← EReal.coe_add, e, Finset.sum_range_add]

/-- The factored product on real entries, as the coercion of a real number. -/
theorem factored_coe (u v : Fin 8 → Fin 8192 → ℝ) (x : Fin 8192 → Fin 4096 → ℝ) (l : Fin 8192) (b : Fin 4096) :
    factored (fun r l => (u r l : EReal)) (fun r m => (v r m : EReal)) (fun m b => (x m b : EReal)) l b
      = ((∑ r : Fin 8, u r l * ∑ m ∈ Finset.range 8192, term v x r b m : ℝ) : EReal) := by
  have e : (15 + 1) * 512 = 8192 := by norm_num
  unfold factored
  rw [coe_sum]
  refine Finset.sum_congr rfl fun r _ => ?_
  rw [acc_coe, e, EReal.coe_mul]

/-- The materialized product on real entries, as the coercion of a real number. -/
theorem materialized_coe (u v : Fin 8 → Fin 8192 → ℝ) (x : Fin 8192 → Fin 4096 → ℝ) (l : Fin 8192) (b : Fin 4096) :
    materialized (fun r l => (u r l : EReal)) (fun r m => (v r m : EReal)) (fun m b => (x m b : EReal)) l b
      = ((∑ m : Fin 8192, (∑ r : Fin 8, u r l * v r m) * x m b : ℝ) : EReal) := by
  unfold materialized
  rw [coe_sum]
  refine Finset.sum_congr rfl fun m _ => ?_
  simp only [EReal.coe_mul, coe_sum]

/-- The identity over the reals: distributivity, and an exchange of the two finite sums. -/
theorem real_identity (u v : Fin 8 → Fin 8192 → ℝ) (x : Fin 8192 → Fin 4096 → ℝ) (l : Fin 8192) (b : Fin 4096) :
    ∑ r : Fin 8, u r l * ∑ m ∈ Finset.range 8192, term v x r b m
      = ∑ m : Fin 8192, (∑ r : Fin 8, u r l * v r m) * x m b := by
  have h1 : ∀ r : Fin 8, ∑ m ∈ Finset.range 8192, term v x r b m = ∑ m : Fin 8192, v r m * x m b := by
    intro r
    rw [← Fin.sum_univ_eq_sum_range (fun m => term v x r b m) 8192]
    refine Finset.sum_congr rfl fun m _ => ?_
    rw [term, dif_pos m.isLt]
  simp only [h1, Finset.mul_sum, Finset.sum_mul]
  rw [Finset.sum_comm]
  refine Finset.sum_congr rfl fun m _ => Finset.sum_congr rfl fun r _ => ?_
  ring

/-- On real entries the two products agree. -/
theorem factored_eq_materialized (u v : Fin 8 → Fin 8192 → EReal) (x : Fin 8192 → Fin 4096 → EReal)
    (hu : ∀ r l, ∃ a : ℝ, u r l = (a : EReal)) (hv : ∀ r m, ∃ a : ℝ, v r m = (a : EReal))
    (hx : ∀ m b, ∃ a : ℝ, x m b = (a : EReal)) (l : Fin 8192) (b : Fin 4096) :
    factored u v x l b = materialized u v x l b := by
  choose u' hu' using hu
  choose v' hv' using hv
  choose x' hx' using hx
  obtain rfl : u = fun r l => (u' r l : EReal) := funext fun r => funext fun l => hu' r l
  obtain rfl : v = fun r m => (v' r m : EReal) := funext fun r => funext fun m => hv' r m
  obtain rfl : x = fun m b => (x' m b : EReal) := funext fun m => funext fun b => hx' m b
  rw [factored_coe, materialized_coe, real_identity]

end LowRank

end
-- ==== Proof.Region0.lean ====
import proofs.«124544_j44306882626256_1_alg».proof.Proof.Gen.KernelIdeal.Frame
import proofs.«124544_j44306882626256_1_alg».proof.Proof.Algebra
import Idealize.ShloMosaic.Lib.Pipeline.Value
import Idealize.ShloMosaic.Lib.ValueIdx
import Idealize.ShloMosaic.PureOps.Ideal.Laws
import Idealize.ShloMosaic.Lib.Tactic

/-!
# The first call: T = V x, accumulated over sixteen blocks of 512 rows

At every grid point the body adds, to what its one 8 × 4096 output block holds, the product of the point's 8 × 512 block
of V with the point's 512 × 4096 block of x; at the first point it first resets the block to zero.  The block is written
back once, after the last point, and it is the whole array.  So T ends at the running sum after point 15, and entry
(r, b) of the running sum after point n is zero plus the shares of blocks 0 … n, in that order.
-/

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.TRegion

open Cert.KernelIdeal Cert.KernelIdeal.Gen

variable {F : FTy → Type} [FloatOps F]

theorem hz : (![0, 0] : Fin 2 → Nat) = fun _ => 0 := funext fun a => by fin_cases a <;> rfl

/-! ## What one point leaves in the output block -/

/-- A later point: the block held xo and now holds xo plus the product of the two input blocks. -/
theorem out_later (c : Dev nD) (i : grid0.Coords) (a1 : Memref sig .tc .vmem S8x512 .f32) (h1 : a1.IsWhole)
    (a2 : Memref sig .tc .vmem S512x4096 .f32) (h2 : a2.IsWhole) (a3 : Memref sig .tc .vmem S8x4096 .f32) (h3 : a3.IsWhole)
    (hc : ¬cond0_0 i) (x0 : Vec F S8x512 .f32) (x1 : Vec F S512x4096 .f32) (xo : Vec F S8x4096 .f32) :
    out0_B_2 c i a1 h1 a2 h2 a3 h3 hc x0 x1 xo = k0_pay2 x0 x1 xo := by
  unfold out0_B_2
  rw [View.read_writes_eq_canon _ _ _ (cover0_B_2 c i a1 h1 a2 h2 a3 h3 hc x0 x1 xo)]
  unfold kernelRun0_B
  dsimp only
  sl_unfold_words
  rw [View.canon_unit_zero hz]
  simp only [View.readAt_eq_ld, h1.read_unread, h2.read_unread, h3.read_unread, View.ld_unit_zero (S := S8x512) hz,
    View.ld_unit_zero (S := S512x4096) hz, View.ld_unit_zero (S := S8x4096) hz]

/-- The first point: the block is reset to zero, read back, and left at zero plus the product. -/
theorem out_first (c : Dev nD) (i : grid0.Coords) (a1 : Memref sig .tc .vmem S8x512 .f32) (h1 : a1.IsWhole)
    (a2 : Memref sig .tc .vmem S512x4096 .f32) (h2 : a2.IsWhole) (a3 : Memref sig .tc .vmem S8x4096 .f32) (h3 : a3.IsWhole)
    (hc : cond0_0 i) (x0 : Vec F S8x512 .f32) (x1 : Vec F S512x4096 .f32) :
    out0_A_2 c i a1 h1 a2 h2 a3 h3 hc x0 x1 = k0_pay2 x0 x1 (k0_pay1 (F := F)) := by
  unfold out0_A_2
  rw [View.read_writes_eq_canon _ _ _ (cover0_A_2 c i a1 h1 a2 h2 a3 h3 hc x0 x1)]
  unfold kernelRun0_A
  dsimp only
  sl_unfold_words
  rw [View.canon_cons_unit_zero (S := S8x4096) hz, View.readCov_unit_zero (S := S8x4096) _ hz]
  simp only [View.readAt_eq_ld, h1.read_unread, h2.read_unread, View.ld_unit_zero (S := S8x512) hz,
    View.ld_unit_zero (S := S512x4096) hz, View.ld_unit_zero (S := S8x4096) hz]

/-! ## The running sum, point by point -/

variable (V : (c : Dev nD) → (b : Ref sig .tc) → Buf (Elt F) ((c : Thread nD τ).loc b))

/-- What the output block holds after point n: the reset and the first product, then one product more per point. -/
def chain (c : Dev nD) : (n : ℕ) → n < cfg0.N → Vec F S8x4096 .f32
  | 0, h => k0_pay2 (iblk0 V c 0 ⟨0, h⟩) (iblk0 V c 1 ⟨0, h⟩) (k0_pay1 (F := F))
  | n + 1, h => k0_pay2 (iblk0 V c 0 ⟨n + 1, h⟩) (iblk0 V c 1 ⟨n + 1, h⟩) (chain c n (Nat.lt_of_succ_lt h))

/-- The contents the frame's recursion names are this running sum: by induction on the point. -/
theorem outsAt_eq (c : Dev nD) : ∀ (n : ℕ) (h : n < cfg0.N), outsAt0 V c n h = chain V c n h
  | 0, h => (outsAt0_A V c ⟨0, h⟩ rfl).trans (out_first ..)
  | n + 1, h => by
    have hN : cfg0.N = 16 := N_0
    have hB : ¬(⟨n + 1, h⟩ : Fin cfg0.N).val % 16 = 0 := by dsimp only; omega
    rw [outsAt0_B V c ⟨n + 1, h⟩ hB, out_later]
    show k0_pay2 _ _ (outsAt0 V c n _) = k0_pay2 _ _ (chain V c n _)
    rw [outsAt_eq c n]

/-- The array T after the call: the running sum after the last point (its one block is the whole array). -/
abbrev result (c : Dev nD) : Buf (Elt F) ((c : Thread nD τ).loc main_v0) := chain V c 15 (by rw [show cfg0.N = 16 from N_0]; decide)

/-- The one write-back, after point 15, writes it. -/
theorem flushed_eq (c : Dev nD) (t : Fin cfg0.N) (hf : (cfg0.win 2).flush t = true) :
    (dat0 V c).flushed 2 t = ((cfg0.win 2).blk t).view.read (Elt F) (result V c) := by
  have hN : cfg0.N = 16 := N_0
  have h15 : t.val = 15 := by have := (flush0_2 t).mp hf; have := t.isLt; omega
  obtain rfl : t = t0_15 := Fin.ext h15
  show (cfg0.win 2).cut (grid0.coords t0_15) ((dat0 V c).after 2 t0_15) = _
  rw [after0_2, outsAt_eq]
  have hz' : (fun a => win0_2.index t0_15 a * main_v0.ty.shape.size a) = fun _ => 0 := funext fun a => by fin_cases a <;> decide
  exact (Memref.read_access_unit_zero (Elt F) main_v0 hz' (fun a => by rw [congrFun hz' a]; simp) (result V c)).symm

/-- So T ends holding the running sum after point 15: that point's block covers the array. -/
theorem final (c : Dev nD) : (dat0 V c).arrAt 2 cfg0.N = result V c :=
  (dat0 V c).arrAt_eq_of_cover 2 (result V c) (flushed_eq V c) fun i =>
    ⟨t0_15, (flush0_2 t0_15).mpr rfl, by
      show i ∈ ((View.whole main_v0).slice (win0_2.rect t0_15)).set
      rw [View.set_slice_whole, Rect.mem_set_unit]
      intro a
      have h0 : (i 0 : Nat) < 8 := (i 0).isLt
      have h1 : (i 1 : Nat) < 4096 := (i 1).isLt
      match a with
      | ⟨0, _⟩ => show win0_2.index t0_15 0 * win0_2.size 0 ≤ (i 0 : Nat) ∧ (i 0 : Nat) < win0_2.index t0_15 0 * win0_2.size 0 + win0_2.xsize (grid0.coords t0_15) 0
                  rw [show win0_2.index t0_15 0 * win0_2.size 0 = 0 from by decide +kernel, show win0_2.xsize (grid0.coords t0_15) 0 = 8 from by decide +kernel]; omega
      | ⟨1, _⟩ => show win0_2.index t0_15 1 * win0_2.size 1 ≤ (i 1 : Nat) ∧ (i 1 : Nat) < win0_2.index t0_15 1 * win0_2.size 1 + win0_2.xsize (grid0.coords t0_15) 1
                  rw [show win0_2.index t0_15 1 * win0_2.size 1 = 0 from by decide +kernel, show win0_2.xsize (grid0.coords t0_15) 1 = 4096 from by decide +kernel]; omega⟩

end Cert.KernelIdeal.TRegion

end
-- ==== Proof.TValue.lean ====
import proofs.«124544_j44306882626256_1_alg».proof.Proof.Region0
import proofs.«124544_j44306882626256_1_alg».proof.Proof.Algebra

/-!
# T at an index

Read at the extended reals, one point's step adds to entry (r, b) of the block the sum over the 512 rows of the point's
blocks of V[r, 512 t + k] · x[512 t + k, b]: the changes of float format are the identity, the product accumulates into
zero.  So entry (r, b) of the running sum after point n is zero plus the shares of the row blocks 0 … n.
-/

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.TRegion

open Cert.KernelIdeal Cert.KernelIdeal.Gen

/-! ## The contraction's operand indices, axis by axis -/

theorem lhs_t_0 (i : S8x4096.Idx) (q : dot_S8x512_S512x4096_S8x4096_1_0_0_1_n_n.contr.Idx) :
    (dot_S8x512_S512x4096_S8x4096_1_0_0_1_n_n.lhsIdx i q 0).val = (i 0).val := by
  unfold DotDims.lhsIdx
  rw [dif_neg (show ¬(0 : Fin S8x512.rank) ∈ dot_S8x512_S512x4096_S8x4096_1_0_0_1_n_n.lhsBatch by decide), dif_pos (show (0 : Fin S8x512.rank) ∈ dot_S8x512_S512x4096_S8x4096_1_0_0_1_n_n.lhsNonContracting by decide)]
  rfl
theorem lhs_t_1 (i : S8x4096.Idx) (q : dot_S8x512_S512x4096_S8x4096_1_0_0_1_n_n.contr.Idx) :
    (dot_S8x512_S512x4096_S8x4096_1_0_0_1_n_n.lhsIdx i q 1).val = (q ⟨0, by decide⟩).val :=
  dot_S8x512_S512x4096_S8x4096_1_0_0_1_n_n.lhsIdx_val_of_single rfl i q
theorem rhs_t_0 (i : S8x4096.Idx) (q : dot_S8x512_S512x4096_S8x4096_1_0_0_1_n_n.contr.Idx) :
    (dot_S8x512_S512x4096_S8x4096_1_0_0_1_n_n.rhsIdx i q 0).val = (q ⟨0, by decide⟩).val :=
  dot_S8x512_S512x4096_S8x4096_1_0_0_1_n_n.rhsIdx_val_of_single rfl i q
theorem rhs_t_1 (i : S8x4096.Idx) (q : dot_S8x512_S512x4096_S8x4096_1_0_0_1_n_n.contr.Idx) :
    (dot_S8x512_S512x4096_S8x4096_1_0_0_1_n_n.rhsIdx i q 1).val = (i 1).val := by
  unfold DotDims.rhsIdx
  rw [dif_neg (show ¬(1 : Fin S512x4096.rank) ∈ dot_S8x512_S512x4096_S8x4096_1_0_0_1_n_n.rhsBatch by decide), dif_pos (show (1 : Fin S512x4096.rank) ∈ dot_S8x512_S512x4096_S8x4096_1_0_0_1_n_n.rhsNonContracting by decide)]
  rfl

/-- One step at an entry: what the block held there, plus the sum over the 512 rows of the two input blocks' products. -/
theorem step_apply (x0 : Vec Ideal S8x512 .f32) (x1 : Vec Ideal S512x4096 .f32) (xo : Vec Ideal S8x4096 .f32) (j : S8x4096.Idx) :
    k0_pay2 (F := Ideal) x0 x1 xo j
      = xo j + ∑ k : Fin 512, x0 (ix2 ⟨(j 0).val, (j 0).isLt⟩ k) * x1 (ix2 k ⟨(j 1).val, (j 1).isLt⟩) := by
  unfold k0_pay2
  simp only [matmul]
  rw [addf_apply, shapeCast_self, Ideal.matmul_constant_zero_apply, ← Equiv.sum_comp (contrEquiv1 dot_S8x512_S512x4096_S8x4096_1_0_0_1_n_n 512 rfl rfl).symm]
  refine congrArg (xo j + ·) (Finset.sum_congr rfl fun k _ => ?_)
  have hk := contrEquiv1_symm_val dot_S8x512_S512x4096_S8x4096_1_0_0_1_n_n 512 rfl rfl k
  have el : dot_S8x512_S512x4096_S8x4096_1_0_0_1_n_n.lhsIdx j ((contrEquiv1 dot_S8x512_S512x4096_S8x4096_1_0_0_1_n_n 512 rfl rfl).symm k) = ix2 ⟨(j 0).val, (j 0).isLt⟩ k := funext fun a => Fin.ext (by
    match a with
    | ⟨0, _⟩ => exact lhs_t_0 _ _
    | ⟨1, _⟩ => exact (lhs_t_1 _ _).trans hk)
  have er : dot_S8x512_S512x4096_S8x4096_1_0_0_1_n_n.rhsIdx j ((contrEquiv1 dot_S8x512_S512x4096_S8x4096_1_0_0_1_n_n 512 rfl rfl).symm k) = ix2 k ⟨(j 1).val, (j 1).isLt⟩ := funext fun a => Fin.ext (by
    match a with
    | ⟨0, _⟩ => exact (rhs_t_0 _ _).trans hk
    | ⟨1, _⟩ => exact rhs_t_1 _ _)
  rw [truncf_apply, truncf_apply, el, er]
  rfl

/-- The reset block is zero at every entry. -/
theorem reset_apply (j : S8x4096.Idx) : k0_pay1 (F := Ideal) j = 0 := by
  unfold k0_pay1
  show Ideal.ofBits .f32 0x00000000#32 = 0
  exact Ideal.ofBits_zero_f32

/-! ## The blocks -/

variable (V : (c : Dev nD) → (b : Ref sig .tc) → Buf (Elt Ideal) ((c : Thread nD τ).loc b))

/-- The printed index maps, decided over the grid: V's block moves along its columns with the point, x's along its rows. -/
theorem idx_facts : ∀ t : Fin cfg0.N, win0_0.index t (0 : Fin 2) = 0 ∧ win0_0.index t (1 : Fin 2) = t.val
    ∧ win0_1.index t (0 : Fin 2) = t.val ∧ win0_1.index t (1 : Fin 2) = 0 :=
  (by decide +kernel : ∀ t : Fin grid0.N, _)

/-- Entry (r, k) of V's block at point t is V[r, 512 t + k]. -/
theorem vblk_apply (c : Dev nD) (t : Fin cfg0.N) (r : Fin 8) (k : Fin 512) (hk : t.val * 512 + k.val < 8192) :
    (iblk0 V c 0 t : Vec Ideal S8x512 .f32) (ix2 r k) = V c main_arg2 (ix2 r ⟨t.val * 512 + k.val, hk⟩) := by
  obtain ⟨e0, e1, -⟩ := idx_facts t
  unfold iblk0
  rw [View.read_apply]
  show V c main_arg2 (((cfg0.win 0).blk t).view.emb (ix2 r k)) = V c main_arg2 _
  refine congrArg _ (funext fun a => Fin.ext ?_)
  match a with
  | ⟨0, _⟩ => show win0_0.index t (0 : Fin 2) * 8 + 1 * r.val = r.val; omega
  | ⟨1, _⟩ => show win0_0.index t (1 : Fin 2) * 512 + 1 * k.val = t.val * 512 + k.val; omega

/-- Entry (k, b) of x's block at point t is x[512 t + k, b]. -/
theorem xblk_apply (c : Dev nD) (t : Fin cfg0.N) (k : Fin 512) (b : Fin 4096) (hk : t.val * 512 + k.val < 8192) :
    (iblk0 V c 1 t : Vec Ideal S512x4096 .f32) (ix2 k b) = V c main_arg0 (ix2 ⟨t.val * 512 + k.val, hk⟩ b) := by
  obtain ⟨-, -, e2, e3⟩ := idx_facts t
  unfold iblk0
  rw [View.read_apply]
  show V c main_arg0 (((cfg0.win 1).blk t).view.emb (ix2 k b)) = V c main_arg0 _
  refine congrArg _ (funext fun a => Fin.ext ?_)
  match a with
  | ⟨0, _⟩ => show win0_1.index t (0 : Fin 2) * 512 + 1 * k.val = t.val * 512 + k.val; omega
  | ⟨1, _⟩ => show win0_1.index t (1 : Fin 2) * 4096 + 1 * b.val = b.val; omega

/-- One step over variables: if x0 and x1 are row block n of V and of x, the step adds block n's share. -/
theorem step_share (va : S8x8192.Idx → EReal) (xa : S8192x4096.Idx → EReal) (x0 : Vec Ideal S8x512 .f32) (x1 : Vec Ideal S512x4096 .f32)
    (xo : Vec Ideal S8x4096 .f32) (n : ℕ) (hn : n < 16)
    (h0 : ∀ (r : Fin 8) (k : Fin 512) (hk : n * 512 + k.val < 8192), x0 (ix2 r k) = va (ix2 r ⟨n * 512 + k.val, hk⟩))
    (h1 : ∀ (k : Fin 512) (b : Fin 4096) (hk : n * 512 + k.val < 8192), x1 (ix2 k b) = xa (ix2 ⟨n * 512 + k.val, hk⟩ b))
    (r : Fin 8) (b : Fin 4096) :
    k0_pay2 (F := Ideal) x0 x1 xo (ix2 r b)
      = xo (ix2 r b) + LowRank.blockDot (fun r m => va (ix2 r m)) (fun m b => xa (ix2 m b)) r b n hn := by
  rw [step_apply]
  refine congrArg (xo (ix2 r b) + ·) ?_
  unfold LowRank.blockDot
  refine Finset.sum_congr rfl fun k _ => ?_
  have hk : n * 512 + k.val < 8192 := by have := k.isLt; omega
  exact congrArg₂ (· * ·) (h0 r k hk) (h1 k b hk)

/-- Entry (r, b) of the running sum after point n: zero plus the shares of the row blocks 0 … n. -/
theorem chain_apply (c : Dev nD) (r : Fin 8) (b : Fin 4096) : ∀ (n : ℕ) (h : n < cfg0.N) (h' : n < 16),
    chain (F := Ideal) V c n h (ix2 r b)
      = LowRank.acc (fun r m => V c main_arg2 (ix2 r m)) (fun m b => V c main_arg0 (ix2 m b)) r b n h'
  | 0, h, h' => by
    show k0_pay2 (F := Ideal) (iblk0 V c 0 ⟨0, h⟩) (iblk0 V c 1 ⟨0, h⟩) (k0_pay1 (F := Ideal)) (ix2 r b) = _
    refine (step_share (V c main_arg2) (V c main_arg0) (iblk0 V c 0 ⟨0, h⟩) (iblk0 V c 1 ⟨0, h⟩) (k0_pay1 (F := Ideal)) 0 h'
      (fun r k hk => vblk_apply V c ⟨0, h⟩ r k hk) (fun k b hk => xblk_apply V c ⟨0, h⟩ k b hk) r b).trans ?_
    rw [reset_apply, LowRank.acc]
  | n + 1, h, h' => by
    show k0_pay2 (F := Ideal) (iblk0 V c 0 ⟨n + 1, h⟩) (iblk0 V c 1 ⟨n + 1, h⟩) (chain (F := Ideal) V c n (Nat.lt_of_succ_lt h)) (ix2 r b) = _
    refine (step_share (V c main_arg2) (V c main_arg0) (iblk0 V c 0 ⟨n + 1, h⟩) (iblk0 V c 1 ⟨n + 1, h⟩) (chain (F := Ideal) V c n (Nat.lt_of_succ_lt h)) (n + 1) h'
      (fun r k hk => vblk_apply V c ⟨n + 1, h⟩ r k hk) (fun k b hk => xblk_apply V c ⟨n + 1, h⟩ k b hk) r b).trans ?_
    rw [chain_apply c r b n (Nat.lt_of_succ_lt h) (Nat.lt_of_succ_lt h'), LowRank.acc]

end Cert.KernelIdeal.TRegion

end
-- ==== Proof.KernelValue.lean ====
import proofs.«124544_j44306882626256_1_alg».proof.Proof.KernelRun
import proofs.«124544_j44306882626256_1_alg».proof.Proof.Region1
import proofs.«124544_j44306882626256_1_alg».proof.Proof.TValue

/-!
# The kernel's result

The second call reads U as launched and T as the first call leaves it, so the result ends, index by index, at the
factored product ∑ r, U[r, l] · T[r, b] with T[r, b] accumulated over the sixteen row blocks of V and x as launched.
-/

set_option maxRecDepth 16384

noncomputable section

open Idealize.ShloMosaic Idealize.ShloMosaic.TcCoe Idealize.SL.Sem
open Idealize.ShloMosaic.ValueIdx

namespace Cert.KernelIdeal.Whole

open Cert.KernelIdeal Cert.KernelIdeal.Gen

/-- The factored product, as a function of the three argument arrays. -/
def kernelOf (x0 : S8192x4096.Idx → EReal) (x1 x2 : S8x8192.Idx → EReal) : S8192x4096.Idx → EReal :=
  fun i => LowRank.factored (fun r l => x1 (ix2 r l)) (fun r m => x2 (ix2 r m)) (fun m b => x0 (ix2 m b))
    ⟨(i 0).val, (i 0).isLt⟩ ⟨(i 1).val, (i 1).isLt⟩

variable (m : (ℓ : Loc nD τ sig) → Buf (Elt Ideal) ℓ) (ρ : Dev nD → PrngReg)

/-- Entry (r, b) of T as the second call finds it: the running sum after the last row block, of V and x as launched. -/
theorem t_apply (c : Dev nD) (r : Fin 8) (b : Fin 4096) :
    V1 m ρ c main_v0 (ix2 r b)
      = LowRank.acc (fun r k => m ((c : Thread nD τ).loc main_arg2) (ix2 r k)) (fun k b => m ((c : Thread nD τ).loc main_arg0) (ix2 k b))
          r b 15 (by norm_num) := by
  have e : V1 m ρ c main_v0 = TRegion.result (V0 m ρ) c := (W1_arr m ρ c 2).trans (TRegion.final (V0 m ρ) c)
  rw [e]
  exact TRegion.chain_apply (V0 m ρ) c r b 15 _ _

/-- The second call finds U as launched: the first call does not touch it. -/
theorem u_eq (c : Dev nD) : V1 m ρ c main_arg1 = m ((c : Thread nD τ).loc main_arg1) :=
  W1_of_ne m ρ c main_arg1 (by decide)

/-- The result array at the last boundary is the factored product of the arguments as launched. -/
theorem final (c : Dev nD) :
    W2 m ρ c (Proc.devRef .tc main_v1)
      = kernelOf (m ((c : Thread nD τ).loc main_arg0)) (m ((c : Thread nD τ).loc main_arg1)) (m ((c : Thread nD τ).loc main_arg2)) := by
  refine (W2_arr m ρ c 2).trans ((OutRegion.final (V1 m ρ) c).trans ?_)
  funext i
  unfold OutRegion.outOf kernelOf LowRank.factored
  refine Finset.sum_congr rfl fun r _ => ?_
  rw [u_eq, t_apply]

/-- The run: the result at the factored product, the arguments unchanged. -/
theorem run : θ_run defs (onTc (τ := τ) (main (F := Ideal))) ⟨m, fun _ => 0, ρ⟩ (fun r => ∀ c : Dev nD,
      r.2.mem ((c.tc : Thread nD τ).loc main_v1)
        = kernelOf (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (final m ρ c), (h c).2⟩) (Named.run m ρ)

end Cert.KernelIdeal.Whole

end
-- ==== Proof.RefValue.lean ====
import proofs.«124544_j44306882626256_1_alg».proof.Defs
import proofs.«124544_j44306882626256_1_alg».proof.Proof.Gen.ReferenceIdeal.Run
import proofs.«124544_j44306882626256_1_alg».proof.Proof.Gen.ReferenceIdeal.Read
import proofs.«124544_j44306882626256_1_alg».proof.Proof.Algebra

/-!
# The reference at an index

The reference forms W = Uᵀ V, entry (l, m) the sum over the eight ranks of U[r, l] · V[r, m], and then W x, entry (l, b)
the sum over m of W[l, m] · x[m, b]: the product through the full 8192 × 8192 matrix.
-/

noncomputable section

open Idealize.ShloMosaic Idealize.ShloMosaic.TcCoe Idealize.SL.Sem
open Idealize.ShloMosaic.ValueIdx

namespace Cert.ReferenceIdeal.RefValue

open Cert.ReferenceIdeal Cert.ReferenceIdeal.Gen Cert.ReferenceIdeal.Read

/-- The product through the full matrix, as a function of the three argument arrays. -/
def refOf (x0 : S8192x4096.Idx → EReal) (x1 x2 : S8x8192.Idx → EReal) : S8192x4096.Idx → EReal :=
  fun i => LowRank.materialized (fun r l => x1 (ix2 r l)) (fun r m => x2 (ix2 r m)) (fun m b => x0 (ix2 m b))
    ⟨(i 0).val, (i 0).isLt⟩ ⟨(i 1).val, (i 1).isLt⟩

/-- The reference's two contractions, read at an index, are that product. -/
theorem val_eq (x0 : (⟨S8192x4096, .f32⟩ : BufTy).Contents (Elt Ideal)) (x1 x2 : (⟨S8x8192, .f32⟩ : BufTy).Contents (Elt Ideal)) :
    val_main_v1 (F := Ideal) x0 x1 x2 = refOf x0 x1 x2 := by
  funext i
  rw [val_main_v1_apply]
  unfold refOf LowRank.materialized
  refine Finset.sum_congr rfl fun m _ => ?_
  rw [val_main_v0_apply]
  refine congrArg₂ (· * ·) (Finset.sum_congr rfl fun r _ => congrArg₂ (· * ·) ?_ ?_) ?_
  · exact congrArg _ (funext fun a => Fin.ext (by match a with | ⟨0, _⟩ => rfl | ⟨1, _⟩ => rfl))
  · exact congrArg _ (funext fun a => Fin.ext (by match a with | ⟨0, _⟩ => rfl | ⟨1, _⟩ => rfl))
  · exact congrArg _ (funext fun a => Fin.ext (by match a with | ⟨0, _⟩ => rfl | ⟨1, _⟩ => rfl))

end Cert.ReferenceIdeal.RefValue

end
-- ==== Proof.Finite.lean ====
import proofs.«124544_j44306882626256_1_alg».proof.Pre_finite_inputs
import Idealize.ShloMosaic.Lib.ReduceAll
import Idealize.ShloMosaic.Lib.ValueIdx
import Idealize.ShloMosaic.PureOps.Ideal.Laws

/-!
# Finite inputs are real numbers

The precondition says of each of the three argument arrays that every entry's absolute value is below +∞.  An extended
real whose absolute value is below +∞ is neither infinity, so it is a real number.
-/

noncomputable section

open Idealize.ShloMosaic

namespace Cert.FiniteInputs

open Cert.Pre_finite_inputs

/-- The rank-zero shape has exactly one index. -/
local instance : Subsingleton S_.Idx := ⟨fun a b => funext fun d => d.elim0⟩

/-- The pattern 0x7F800000 denotes +∞. -/
theorem ofBits_inf : Ideal.ofBits .f32 0x7F800000#32 = ⊤ := by simp [Ideal.ofBits, Ideal.ieee]

/-- An extended real with |x| < +∞ is a real number: at either infinity, max x (-x) = ⊤. -/
theorem real_of_abs_lt_inf (x : Ideal .f32)
    (h : FloatOps.cmpf (F := Ideal) .olt (FloatOps.hostAbsf x) (FloatOps.ofBits .f32 0x7F800000#32) = 1#1) :
    ∃ a : ℝ, x = (a : EReal) := by
  change Ideal.cmp .olt (max x (-x)) (Ideal.ofBits .f32 0x7F800000#32) = 1#1 at h
  rw [ofBits_inf] at h
  induction x using EReal.rec with
  | bot => simp [Ideal.cmp] at h
  | coe a => exact ⟨a, rfl⟩
  | top => simp [Ideal.cmp] at h

/-- One array: if the conjunction over all entries of |x i| < +∞ is true, every entry is a real number. -/
theorem real_of_all {s : Shape} {axes : List (Fin s.rank)} (dims : Fin S_.rank → Fin s.rank)
    (hb : S_.BroadcastsInDim s dims) (hr : s.ReducesTo axes S_) (h0 : 0 < S_.numel) (x : FVec Ideal s .f32) (j : S_.Idx)
    (e : Host.reduce IntOp.andi
        (cmpf .olt (Host.absf x) (broadcastInDim s dims hb (constant (F := Ideal) S_ .f32 0x7F800000#32)))
        (constantI S_ 1 1#1) hr h0 j = 1#1) :
    ∀ i, ∃ a : ℝ, x i = (a : EReal) := fun i =>
  real_of_abs_lt_inf (x i) (Host.reduce_andi_all _ _ hr h0 j e i)

/-- Under the precondition every entry of the three arrays is a real number. -/
theorem real_of_pre [Cert.Pre_finite_inputs.Facts] (x0 : FVec Ideal S8192x4096 .f32) (x1 x2 : FVec Ideal S8x8192 .f32)
    (h : Cert.Pre_finite_inputs.fn (F := Ideal) x0 x1 x2 = fun _ => 1#1) :
    (∀ i, ∃ a : ℝ, x0 i = (a : EReal)) ∧ (∀ i, ∃ a : ℝ, x1 i = (a : EReal)) ∧ (∀ i, ∃ a : ℝ, x2 i = (a : EReal)) := by
  have e := congrFun h ValueIdx.ix0
  dsimp only [Cert.Pre_finite_inputs.fn, andi] at e
  obtain ⟨e01, e2⟩ := IntOp.andi_eq_one.1 e
  obtain ⟨e0, e1⟩ := IntOp.andi_eq_one.1 e01
  exact ⟨real_of_all _ _ _ _ x0 _ e0, real_of_all _ _ _ _ x1 _ e1, real_of_all _ _ _ _ x2 _ e2⟩

end Cert.FiniteInputs

end
-- ==== Proof.lean ====
/-
  A rank-8 matrix applied to a batch of vectors, two ways.

  The reference materializes W = Uᵀ V, an 8192 × 8192 matrix of rank at most 8, and multiplies it with x (8192 × 4096):
  out[l, b] = ∑ m, (∑ r, U[r, l] · V[r, m]) · x[m, b].  The kernel never forms W: a first call accumulates the small
  matrix T = V x (8 × 4096) over sixteen blocks of 512 rows of x, a second call forms out = Uᵀ T one block of 1024 rows
  at a time, so out[l, b] = ∑ r, U[r, l] · T[r, b].  Over the extended reals (every float operation exact, a change of
  float format the identity) the two are equal when the inputs are finite: U[r, l] moves across the sum over m by
  distributivity, which holds for real numbers and fails at the infinities, and the two finite sums exchange.

  The kernel's value is read off its two calls (the running sum of the first by induction on the grid point, the blocks
  of the second tiling the result), the reference's off its two contractions, and the identity is proved over the reals.
-/
import proofs.«124544_j44306882626256_1_alg».proof.Defs
import proofs.«124544_j44306882626256_1_alg».proof.Proof.Gen.Kernel
import proofs.«124544_j44306882626256_1_alg».proof.Proof.Gen.Kernel.Frame
import proofs.«124544_j44306882626256_1_alg».proof.Proof.Gen.KernelIdeal
import proofs.«124544_j44306882626256_1_alg».proof.Proof.Gen.KernelIdeal.Frame
import proofs.«124544_j44306882626256_1_alg».proof.Proof.Gen.ReferenceIdeal
import proofs.«124544_j44306882626256_1_alg».proof.Proof.Gen.ReferenceIdeal.Run
import proofs.«124544_j44306882626256_1_alg».proof.Proof.Gen.ReferenceIdeal.Read
import proofs.«124544_j44306882626256_1_alg».proof.Proof.Gen.Pre_finite_inputs
import proofs.«124544_j44306882626256_1_alg».proof.Proof.KernelValue
import proofs.«124544_j44306882626256_1_alg».proof.Proof.RefValue
import proofs.«124544_j44306882626256_1_alg».proof.Proof.Finite
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernel_ideal : Cert.frame_KernelIdeal := fun m ρ _ => Cert.KernelIdeal.Gen.frame m ρ
theorem frame_reference_ideal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs run; the kernel ends at the factored product, the reference at the product through the full matrix, of
    arguments that agree; on finite inputs the two products are equal, entry by entry. -/
theorem algebraic : Cert.algebraic_KernelIdeal_ReferenceIdeal := by
  intro m ρ m' ρ' hpre hagree
  refine ⟨fun c => Cert.KernelIdeal.Whole.kernelOf (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v1_eq, Cert.ReferenceIdeal.RefValue.val_eq]
  obtain ⟨h0, h1, h2⟩ := Cert.FiniteInputs.real_of_pre _ _ _ (hpre c)
  funext i
  exact (LowRank.factored_eq_materialized _ _ _ (fun r l => h1 _) (fun r k => h2 _) (fun k b => h0 _) _ _).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
